-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x16 : Shape := ⟨2, ![1, 16]⟩
abbrev S64x16 : Shape := ⟨2, ![64, 16]⟩

abbrev nBuf : Space → Nat
  | .hbm => 104
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S_, .f32⟩
  | .hbm, ⟨87, _⟩ => ⟨S64x128, .f32⟩
  | .hbm, ⟨88, _⟩ => ⟨S50000x1, .i32⟩
  | .hbm, ⟨89, _⟩ => ⟨S64x128, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S64, .f32⟩
  | .hbm, ⟨94, _⟩ => ⟨S50000x1, .i32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64x1, .f32⟩
  | .hbm, ⟨100, _⟩ => ⟨S64x128, .f32⟩
  | .hbm, ⟨101, _⟩ => ⟨S64x128, .f32⟩
  | .hbm, ⟨102, _⟩ => ⟨S1x16, .f32⟩
  | .hbm, ⟨103, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S64x128, .f32⟩
  | .local _ .vmem, ⟨17, _⟩ => ⟨S128x16, .f32⟩
  | .local _ .vmem, ⟨18, _⟩ => ⟨S1x16, .f32⟩
  | .local _ .vmem, ⟨19, _⟩ => ⟨S64x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S16_S1x16 : S16.ShapeCasts S1x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x16.size a ≤ S64x16.size a
  hwx3_3 : ∀ i : grid3.Coords, EltTy.bits .f32 = 32 ∨ (Rect.block (s := S64x16) S64x16.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S64x16.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S50000x128, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S64x128, .f32⟩
  | 116 => ⟨S50000x1, .i32⟩
  | 117 => ⟨S64x128, .f32⟩
  | 118 => ⟨S_, .f32⟩
  | 119 => ⟨S50000, .f32⟩
  | 120 => ⟨S_, .f32⟩
  | 121 => ⟨S64, .f32⟩
  | 122 => ⟨S50000x1, .i32⟩
  | 123 => ⟨S64, .f32⟩
  | 124 => ⟨S_, .f32⟩
  | 125 => ⟨S64, .f32⟩
  | 126 => ⟨S64, .f32⟩
  | 127 => ⟨S64x1, .f32⟩
  | _ => ⟨S50000x128, .f32⟩

abbrev hbmTy0_1 (i : Nat) : BufTy := match i % 128 with
  | 0 => ⟨S64x128, .f32⟩
  | 1 => ⟨S64x128, .f32⟩
  | 2 => ⟨S64x16, .f32⟩
  | 3 => ⟨S1x16, .f32⟩
  | 4 => ⟨S64x16, .f32⟩
  | 5 => ⟨S64x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Graph.lean ====
/-
  The sparse half of a two-layer graph convolution, as functions of whole arrays, for any float family. The graph
  has 50000 nodes and 800000 directed edges given as two rows of node numbers; every node also gets an edge to
  itself, so an endpoint list has 850000 entries. `degOf` counts, for each node, the edges that END there (a
  scatter-add of ones at the destinations); `invSqrtDeg` is one over the square root of that count where the count
  is positive and zero elsewhere; an edge's weight `normOf` is the product of that quantity at its two endpoints.
  `aggregate h` sends every node's feature row along its outgoing edges: the row of the SOURCE is looked up, scaled
  by the edge's weight, and added into the row of the DESTINATION. `meanPool` adds the node rows of each of the 64
  graphs and divides by the number of nodes of the graph, or by one for an empty graph. A negative node number
  counts from the end, as array indexing does: `wrap` adds 50000 to it before a row is looked up.
  Both programs of the certificate apply these same operations; what differs between them is only how the dense
  products and the bias-and-clamp steps between them are computed, so these chains are carried as they are and never
  opened.
-/
import proofs.«158317_j52415780880534_1_alg».proof.ReferenceIdeal
import proofs.«158317_j52415780880534_1_alg».proof.Proof.Gen.ReferenceIdeal

noncomputable section

namespace Cert.Gcn

open Idealize.ShloMosaic Idealize.SL.Sem
open Cert.ReferenceIdeal Cert.ReferenceIdeal.Gen

variable {F : FTy → Type} [FloatOps F]

/-- The edges' source nodes (row 0 of the edge list), then every node once for its self loop. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destination nodes (row 1 of the edge list), then every node once for its self loop. -/
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number counts from the end of the 50000 nodes. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- How many edges end at each node: ones added at the destinations. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- One over the square root of the degree where it is positive, zero elsewhere. -/
def invSqrtDeg (dst : (⟨S850000, .i32⟩ : BufTy).Contents (Elt F)) : (⟨S50000, .f32⟩ : BufTy).Contents (Elt F) :=
  select (cmpf (F := F) .ogt (degOf dst) (broadcastInDim S50000 ![] bcast_S_S50000 (constant S_ .f32 0x00000000#32))) (Host.rsqrt (degOf dst)) (broadcastInDim S50000 ![] bcast_S_S50000 (id (constant S_ .f32 0x00000000#32)))

/-- An edge's weight: the inverse square root of the degree at its source times that at its destination. -/
def normOf (src dst : (⟨S850000, .i32⟩ : BufTy).Contents (Elt F)) : (⟨S850000, .f32⟩ : BufTy).Contents (Elt F) :=
  mulf (Host.gather gather_S50000_S850000x1_S850000_n_0_n_n_0_1_1 (invSqrtDeg dst) (broadcastInDim S850000x1 ![0] bcast_S850000_S850000x1_0 (wrap src))) (Host.gather gather_S50000_S850000x1_S850000_n_0_n_n_0_1_1 (invSqrtDeg dst) (broadcastInDim S850000x1 ![0] bcast_S850000_S850000x1_0 (wrap dst)))

/-- Message passing: each edge takes its source's feature row, scales it by the edge's weight, and adds it into its
    destination's row. -/
def aggregate (h : (⟨S50000x128, .f32⟩ : BufTy).Contents (Elt F)) (src dst : (⟨S850000, .i32⟩ : BufTy).Contents (Elt F))
    (nrm : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrap src))) (broadcastInDim S850000x128 ![0, 1] bcast_S850000x1_S850000x128_0_1 (broadcastInDim S850000x1 ![0] bcast_S850000_S850000x1_0 nrm)))

/-- The mean of the node rows of each graph: the rows added per graph, over the graph's node count, a count of zero
    read as one. -/
def meanPool (h : (⟨S50000x128, .f32⟩ : BufTy).Contents (Elt F)) (bt : (⟨S50000, .i32⟩ : BufTy).Contents (Elt F)) :
    (⟨S64x128, .f32⟩ : BufTy).Contents (Elt F) :=
  Host.divf (Host.scatterAdd scatter_S64x128_S50000x1_S50000x128_1_0_0_1 (broadcastInDim S64x128 ![] bcast_S_S64x128 (constant S_ .f32 0x00000000#32)) (broadcastInDim S50000x1 ![0] bcast_S50000_S50000x1_0 bt) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 bt) (broadcastInDim S50000 ![] bcast_S_S50000 (constant S_ .f32 0x3F800000#32))) (broadcastInDim S64 ![] bcast_S_S64 (constant S_ .f32 0x3F800000#32)))))

end Cert.Gcn

end
-- ==== Proof.HostChain.lean ====
/-
  The kernel's program between its four dense regions, read buffer by buffer. @main alternates stretches of host
  operations with the regions; the contents of every buffer at each boundary are a fold from the launch memory, and
  this module reads that fold where the value needs it. Before region 0 the host builds the edge endpoint lists
  (with the self loops) and the edge weights. After each of regions 0 and 1 the host performs one round of message
  passing on the region's output (`aggregate`) and lays the next bias out as a row; after region 2 it pools the rows
  per graph (`meanPool`) and lays the last bias out as a row. Everything else a later step reads is in ONE set of
  buffers, `carried`: the two endpoint lists, the edge weights, and the arguments not yet consumed. No segment from
  region 0 on writes any of them (a region writes its own output array only, a host operation its own result), so
  each holds at every later boundary what it held at region 0's entry.
-/
import proofs.«158317_j52415780880534_1_alg».proof.Proof.Gen.KernelIdeal.Frame
import proofs.«158317_j52415780880534_1_alg».proof.Proof.Graph
import Idealize.ShloMosaic.Lib.StableHlo.Run

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## At region 0's entry -/

/-- The source endpoints, self loops appended, of the launched edge list. -/
theorem src3 : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results
  rfl

/-- The destination endpoints, self loops appended. -/
theorem dst3 : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results
  rfl

set_option maxHeartbeats 2000000 in
/-- The edge weights: the degree's inverse square root at the source times that at the destination. -/
theorem nrm3 : W3 m ρ c (Proc.devRef .tc main_v29)
    = normOf (srcOf (m ((c : Thread nD τ).loc main_arg1))) (dstOf (m ((c : Thread nD τ).loc main_arg1))) := by
  show StableHlo.after hostOps0_2 (StableHlo.after hostOps0_1 (StableHlo.after hostOps0 (W0 m ρ c))) (Proc.devRef .tc main_v29) = _
  after_results_simp
  rfl

/-- The arguments the dense steps and the pooling read. -/
def dense : List (Ref sig .tc) :=
  [main_arg0, main_arg2, main_arg3, main_arg4, main_arg5, main_arg6, main_arg7, main_arg8]

set_option maxHeartbeats 4000000 in
/-- None of them is written before region 0: each is as launched. -/
theorem launched3 : ∀ a ∈ dense, W3 m ρ c (Proc.devRef .tc a) = m ((c : Thread nD τ).loc a) := by
  intro a ha
  simp only [dense, List.mem_cons, List.not_mem_nil, or_false] at ha
  rcases ha with rfl | rfl | rfl | rfl | rfl | rfl | rfl | rfl <;>
    (show StableHlo.after hostOps0_2 (StableHlo.after hostOps0_1 (StableHlo.after hostOps0 (W0 m ρ c))) _ = _
     after_results_simp)

/-! ## What is carried from region 0's entry on -/

/-- The endpoint lists, the edge weights, and the arguments consumed after region 0. -/
def carried : List (Ref sig .tc) :=
  [main_v3, main_v6, main_v29, main_arg2, main_arg4, main_arg5, main_arg6, main_arg7, main_arg8]

/-- Region 0 writes its output array only. -/
theorem across0 : ∀ b ∈ carried, W4 m ρ c (Proc.devRef .tc b) = W3 m ρ c (Proc.devRef .tc b) := by
  intro b hb
  simp only [carried, List.mem_cons, List.not_mem_nil, or_false] at hb
  rcases hb with rfl | rfl | rfl | rfl | rfl | rfl | rfl | rfl | rfl <;> exact W4_of_ne m ρ c _ (by decide)

set_option maxHeartbeats 2000000 in
/-- The host operations after region 0 write their own results only. -/
theorem after0 : ∀ b ∈ carried, W5 m ρ c (Proc.devRef .tc b) = W4 m ρ c (Proc.devRef .tc b) := by
  intro b hb
  simp only [carried, List.mem_cons, List.not_mem_nil, or_false] at hb
  rcases hb with rfl | rfl | rfl | rfl | rfl | rfl | rfl | rfl | rfl <;>
    (show StableHlo.after hostOps1 (W4 m ρ c) _ = _
     after_results)

/-- From region 1 on the first bias and the second weight are consumed (the weight is one of region 1's own arrays):
    what is still carried. -/
def later : List (Ref sig .tc) :=
  [main_v3, main_v6, main_v29, main_arg2, main_arg6, main_arg7, main_arg8]

theorem later_sub : ∀ b ∈ later, b ∈ carried := by
  intro b hb
  simp only [later, List.mem_cons, List.not_mem_nil, or_false] at hb
  rcases hb with rfl | rfl | rfl | rfl | rfl | rfl | rfl <;> decide

theorem across1 : ∀ b ∈ later, W6 m ρ c (Proc.devRef .tc b) = W5 m ρ c (Proc.devRef .tc b) := by
  intro b hb
  simp only [later, List.mem_cons, List.not_mem_nil, or_false] at hb
  rcases hb with rfl | rfl | rfl | rfl | rfl | rfl | rfl <;> exact W6_of_ne m ρ c _ (by decide)

set_option maxHeartbeats 2000000 in
theorem after1 : ∀ b ∈ later, W7 m ρ c (Proc.devRef .tc b) = W6 m ρ c (Proc.devRef .tc b) := by
  intro b hb
  simp only [later, List.mem_cons, List.not_mem_nil, or_false] at hb
  rcases hb with rfl | rfl | rfl | rfl | rfl | rfl | rfl <;>
    (show StableHlo.after hostOps2 (W6 m ρ c) _ = _
     after_results)

theorem across2 : ∀ b ∈ later, W8 m ρ c (Proc.devRef .tc b) = W7 m ρ c (Proc.devRef .tc b) := by
  intro b hb
  simp only [later, List.mem_cons, List.not_mem_nil, or_false] at hb
  rcases hb with rfl | rfl | rfl | rfl | rfl | rfl | rfl <;> exact W8_of_ne m ρ c _ (by decide)

set_option maxHeartbeats 2000000 in
theorem after2 : ∀ b ∈ later, W9 m ρ c (Proc.devRef .tc b) = W8 m ρ c (Proc.devRef .tc b) := by
  intro b hb
  simp only [later, List.mem_cons, List.not_mem_nil, or_false] at hb
  rcases hb with rfl | rfl | rfl | rfl | rfl | rfl | rfl <;>
    (show StableHlo.after hostOps3 (W8 m ρ c) _ = _
     after_results)

/-- So at every boundary up to region 3's entry a buffer still carried holds what it held at region 0's entry. -/
theorem kept4 (b : Ref sig .tc) (hb : b ∈ carried) : W4 m ρ c (Proc.devRef .tc b) = W3 m ρ c (Proc.devRef .tc b) :=
  across0 m ρ c b hb
theorem kept5 (b : Ref sig .tc) (hb : b ∈ carried) : W5 m ρ c (Proc.devRef .tc b) = W3 m ρ c (Proc.devRef .tc b) :=
  (after0 m ρ c b hb).trans (kept4 m ρ c b hb)
theorem kept6 (b : Ref sig .tc) (hb : b ∈ later) : W6 m ρ c (Proc.devRef .tc b) = W3 m ρ c (Proc.devRef .tc b) :=
  (across1 m ρ c b hb).trans (kept5 m ρ c b (later_sub b hb))
theorem kept7 (b : Ref sig .tc) (hb : b ∈ later) : W7 m ρ c (Proc.devRef .tc b) = W3 m ρ c (Proc.devRef .tc b) :=
  (after1 m ρ c b hb).trans (kept6 m ρ c b hb)
theorem kept8 (b : Ref sig .tc) (hb : b ∈ later) : W8 m ρ c (Proc.devRef .tc b) = W3 m ρ c (Proc.devRef .tc b) :=
  (across2 m ρ c b hb).trans (kept7 m ρ c b hb)
theorem kept9 (b : Ref sig .tc) (hb : b ∈ later) : W9 m ρ c (Proc.devRef .tc b) = W3 m ρ c (Proc.devRef .tc b) :=
  (after2 m ρ c b hb).trans (kept8 m ρ c b hb)

/-! ## What each segment produces -/

/-- Region 0's output array is what its write-backs leave. -/
theorem out4 : W4 m ρ c (Proc.devRef .tc main_v30) = (dat0 (V3 m ρ) c).arrAt 2 cfg0.N := W4_arr m ρ c 2

set_option maxHeartbeats 2000000 in
/-- The first round of message passing, on region 0's output. -/
theorem agg5 : W5 m ρ c (Proc.devRef .tc main_v43)
    = aggregate (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  after_results_simp
  rfl

/-- The first bias laid out as a row. -/
theorem row5 : W5 m ρ c (Proc.devRef .tc main_v44) = shapeCast S1x128 (W4 m ρ c (Proc.devRef .tc main_arg4)) shapeCasts_S128_S1x128 := by
  show StableHlo.after hostOps1 (W4 m ρ c) (Proc.devRef .tc main_v44) = _
  after_results
  rfl

theorem out6 : W6 m ρ c (Proc.devRef .tc main_v45) = (dat1 (V5 m ρ) c).arrAt 3 cfg1.N := W6_arr m ρ c 3

set_option maxHeartbeats 2000000 in
/-- The second round of message passing, on region 1's output. -/
theorem agg7 : W7 m ρ c (Proc.devRef .tc main_v58)
    = aggregate (W6 m ρ c (Proc.devRef .tc main_v45)) (W6 m ρ c (Proc.devRef .tc main_v3)) (W6 m ρ c (Proc.devRef .tc main_v6)) (W6 m ρ c (Proc.devRef .tc main_v29)) := by
  show StableHlo.after hostOps2 (W6 m ρ c) (Proc.devRef .tc main_v58) = _
  after_results_simp
  rfl

/-- The second bias laid out as a row. -/
theorem row7 : W7 m ρ c (Proc.devRef .tc main_v59) = shapeCast S1x128 (W6 m ρ c (Proc.devRef .tc main_arg6)) shapeCasts_S128_S1x128 := by
  show StableHlo.after hostOps2 (W6 m ρ c) (Proc.devRef .tc main_v59) = _
  after_results
  rfl

theorem out8 : W8 m ρ c (Proc.devRef .tc main_v60) = (dat2 (V7 m ρ) c).arrAt 2 cfg2.N := W8_arr m ρ c 2

set_option maxHeartbeats 2000000 in
/-- The mean over each graph's nodes, of region 2's output. -/
theorem pool9 : W9 m ρ c (Proc.devRef .tc main_v72)
    = meanPool (W8 m ρ c (Proc.devRef .tc main_v60)) (W8 m ρ c (Proc.devRef .tc main_arg2)) := by
  show StableHlo.after hostOps3 (W8 m ρ c) (Proc.devRef .tc main_v72) = _
  after_results_simp
  rfl

/-- The last bias laid out as a row. -/
theorem row9 : W9 m ρ c (Proc.devRef .tc main_v73) = shapeCast S1x16 (W8 m ρ c (Proc.devRef .tc main_arg8)) shapeCasts_S16_S1x16 := by
  show StableHlo.after hostOps3 (W8 m ρ c) (Proc.devRef .tc main_v73) = _
  after_results
  rfl

/-- Region 3's output array, the program's result. -/
theorem out10 : W10 m ρ c (Proc.devRef .tc main_v74) = (dat3 (V9 m ρ) c).arrAt 3 cfg3.N := W10_arr m ρ c 3

end Cert.Gcn.Chain

end
-- ==== Proof.Dense.lean ====
/-
  The dense pieces of a two-layer graph convolution, each as ONE function of whole arrays over the extended
  reals. A node table has 128 features per row. `rowsTimes X W` is the matrix product read entry by entry: entry
  (r, q) is the sum over the 128 input features k of X(r, k) · W(k, q). `biasRelu A b` adds the bias row `b` to
  every row of `A` and clamps the sum below at zero; `addRow A b` only adds the row. Nothing here depends on how a
  product is tiled or on which unit computes it: a row block of a product is the product of the row block, because
  entry (r, q) reads row r of the left factor only, and a sum over k is the same sum in any order.
-/
import Idealize.ShloMosaic.PureOps.Ideal
import Idealize.ShloMosaic.Lib.ValueIdx

noncomputable section

open scoped BigOperators

namespace Cert.Gcn

open Idealize.ShloMosaic Idealize.ShloMosaic.ValueIdx

/-- The matrix product of an `n × 128` table with a `128 × p` weight, entry by entry: the sum over the 128
    contracted features of left entry times right entry. -/
def rowsTimes {n p : Nat} (X : (⟨2, ![n, 128]⟩ : Shape).Idx → EReal) (W : (⟨2, ![128, p]⟩ : Shape).Idx → EReal) :
    (⟨2, ![n, p]⟩ : Shape).Idx → EReal :=
  fun j => ∑ k : Fin 128, X (ix2 (n0 := n) (n1 := 128) (j 0) k) * W (ix2 (n0 := 128) (n1 := p) k (j 1))

/-- The bias row added to every row, then the maximum with zero. -/
def biasRelu {n p : Nat} (A : (⟨2, ![n, p]⟩ : Shape).Idx → EReal) (b : (⟨2, ![1, p]⟩ : Shape).Idx → EReal) :
    (⟨2, ![n, p]⟩ : Shape).Idx → EReal :=
  fun j => max (A j + b (ix2 (n0 := 1) (n1 := p) 0 (j 1))) 0

/-- The bias row added to every row. -/
def addRow {n p : Nat} (A : (⟨2, ![n, p]⟩ : Shape).Idx → EReal) (b : (⟨2, ![1, p]⟩ : Shape).Idx → EReal) :
    (⟨2, ![n, p]⟩ : Shape).Idx → EReal :=
  fun j => A j + b (ix2 (n0 := 1) (n1 := p) 0 (j 1))

theorem rowsTimes_apply {n p : Nat} (X : (⟨2, ![n, 128]⟩ : Shape).Idx → EReal) (W : (⟨2, ![128, p]⟩ : Shape).Idx → EReal)
    (r : Fin n) (q : Fin p) :
    rowsTimes X W (ix2 r q) = ∑ k : Fin 128, X (ix2 r k) * W (ix2 k q) := rfl

theorem biasRelu_apply {n p : Nat} (A : (⟨2, ![n, p]⟩ : Shape).Idx → EReal) (b : (⟨2, ![1, p]⟩ : Shape).Idx → EReal)
    (r : Fin n) (q : Fin p) :
    biasRelu A b (ix2 r q) = max (A (ix2 r q) + b (ix2 0 q)) 0 := rfl

theorem addRow_apply {n p : Nat} (A : (⟨2, ![n, p]⟩ : Shape).Idx → EReal) (b : (⟨2, ![1, p]⟩ : Shape).Idx → EReal)
    (r : Fin n) (q : Fin p) :
    addRow A b (ix2 r q) = A (ix2 r q) + b (ix2 0 q) := rfl

end Cert.Gcn

end
-- ==== Proof.Model.lean ====
/-
  The whole computation over plain functions of whole arrays, on the extended reals: the meeting point of the two
  programs. One layer is the dense product with the layer's weight, message passing over the edges, the bias row
  added and the clamp at zero; the result is two layers, the mean over each graph's nodes, one more dense product
  and the last bias row. The biases enter already laid out as rows.
-/
import proofs.«158317_j52415780880534_1_alg».proof.Proof.Dense
import proofs.«158317_j52415780880534_1_alg».proof.Proof.Graph

noncomputable section

namespace Cert.Gcn

open Idealize.ShloMosaic Idealize.SL.Sem
open Cert.ReferenceIdeal

/-- One graph-convolution layer: product with the weight, message passing, bias row, clamp at zero. -/
def layer (h : FVec Ideal S50000x128 .f32) (W : FVec Ideal S128x128 .f32) (r : FVec Ideal S1x128 .f32)
    (src dst : IVec S850000 32) (nrm : FVec Ideal S850000 .f32) : FVec Ideal S50000x128 .f32 :=
  biasRelu (n := 50000) (p := 128) (aggregate (F := Ideal) (rowsTimes (n := 50000) (p := 128) h W) src dst nrm) r

/-- Two layers over the same edges, the mean per graph, the last product and its bias row. -/
def model (x : FVec Ideal S50000x128 .f32) (ei : IVec S2x800000 32) (bt : IVec S50000 32)
    (W1 : FVec Ideal S128x128 .f32) (r1 : FVec Ideal S1x128 .f32) (W2 : FVec Ideal S128x128 .f32) (r2 : FVec Ideal S1x128 .f32)
    (Wfc : FVec Ideal S128x16 .f32) (rfc : FVec Ideal S1x16 .f32) : FVec Ideal S64x16 .f32 :=
  addRow (n := 64) (p := 16)
    (rowsTimes (n := 64) (p := 16)
      (meanPool (F := Ideal)
        (layer (layer x W1 r1 (srcOf (F := Ideal) ei) (dstOf (F := Ideal) ei) (normOf (F := Ideal) (srcOf (F := Ideal) ei) (dstOf (F := Ideal) ei)))
          W2 r2 (srcOf (F := Ideal) ei) (dstOf (F := Ideal) ei) (normOf (F := Ideal) (srcOf (F := Ideal) ei) (dstOf (F := Ideal) ei)))
        bt)
      Wfc)
    rfc

end Cert.Gcn

end
-- ==== Proof.Region0.lean ====
import proofs.«158317_j52415780880534_1_alg».proof.Proof.Gen.KernelIdeal.Frame
import proofs.«158317_j52415780880534_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-! # Region 0: the node table times the first weight, row block by row block

The region walks ten grid points. At point t it loads rows 5000·t … 5000·t + 4999 of the 50000 × 128 node table
and the whole 128 × 128 weight, multiplies them (accumulating from zero over the extended reals, where narrowing
an operand's format is the identity), and writes the 5000 × 128 result back as rows 5000·t … of the output.
Entry (r, q) of a product reads row r of the left factor only, so a row block of the product is the product of
the row block; the ten blocks tile the 50000 rows, so the output ends as the whole product. -/

/-- The pair of zero offsets is the constantly zero offset. -/
theorem hz : (![0, 0] : Fin 2 → Nat) = fun _ => 0 := funext fun a => by fin_cases a <;> rfl

/-! ## The row-block product: which operand entries an output entry reads

The product's dimension numbers contract the left operand's second axis with the right operand's first. So
output entry (r, q) at contraction position k reads the left operand at (r, k) and the right at (k, q). -/

/-- The left operand is read in the output's row … -/
theorem left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contraction position as its column; -/
theorem left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction position as its row … -/
theorem right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the output's column. -/
theorem right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 weight, accumulated from zero over the extended reals, read at entry
    (p, q): the sum over the 128 contracted features k of left (p, k) times right (k, q). Narrowing the operands'
    format changes nothing there, and the zero accumulator adds nothing. -/
theorem blockProduct_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact left_row _ _
    | ⟨1, _⟩ => exact (left_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (right_row _ _).trans hk
    | ⟨1, _⟩ => exact right_col _ _)
  rw [el, er]

/-- Region 0's stored value at entry (p, q) of a block: the product of the loaded row block with the loaded weight. -/
theorem payload_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (blockProduct_apply _ _ p q).trans ?_
  rfl

/-! ## Where the blocks sit

Over the ten grid points: the node table's block and the output's block are the same row block, block t at
point t, both starting at column 0; the weight's block is always the whole weight. -/

/-- The node table as the region finds it. -/
abbrev table (c : Dev nD) : S50000x128.Idx → EReal := V c main_arg0
/-- The first weight as the region finds it. -/
abbrev weight (c : Dev nD) : S128x128.Idx → EReal := V c main_arg3

theorem blockIndices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node table's block at a point, read at (p, k), is the table at the block's first row plus p, column k. -/
theorem tableBlock_apply (c : Dev nD) (t : Fin cfg0.N) (p : Fin 5000) (k : Fin 128) (r : Fin 50000)
    (hr : r.val = win0_0.index t (0 : Fin 2) * 5000 + p.val) :
    (iblk0 V c 0 t : Vec Ideal S5000x128 .f32) (ix2 p k) = table V c (ix2 r k) := by
  have e1 : win0_0.index t (1 : Fin 2) = 0 := (blockIndices t).2.1
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight's block at every point is the whole weight. -/
theorem weightBlock_apply (c : Dev nD) (t : Fin cfg0.N) (k : Fin 128) (q : Fin 128) :
    (iblk0 V c 1 t : Vec Ideal S128x128 .f32) (ix2 k q) = weight V c (ix2 k q) := by
  obtain ⟨-, -, e2, e3, -, -⟩ := blockIndices t
  unfold iblk0
  rw [View.read_apply]
  show V c main_arg3 _ = V c main_arg3 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-! ## What a point writes back, and the whole array -/

/-- What point t writes back is block t of the product of the whole node table by the weight: entry (p, q) of
    the block's product sums the table's row 5000·t + p against the weight's column q, which is the whole
    product's entry at that row, because a product's entry reads one row of its left factor only. -/
theorem flushed_eq (c : Dev nD) (t : Fin cfg0.N) :
    (dat0 (F := Ideal) V c).flushed 2 t
      = ((cfg0.win 2).blk t).view.read (Elt Ideal) (rowsTimes (n := 50000) (p := 128) (table V c) (weight V c)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, -, -, -, -, -⟩ := blockIndices t
  funext j
  have hp : (j 0).val < 5000 := (j 0).isLt
  have hq : (j 1).val < 128 := (j 1).isLt
  have hj : (cfg0.win 2).xinj (grid0.coords t) j = ix2 (⟨(j 0).val, hp⟩ : Fin 5000) (⟨(j 1).val, hq⟩ : Fin 128) :=
    funext fun a => by match a with | ⟨0, _⟩ => rfl | ⟨1, _⟩ => rfl
  refine (congrArg (k0_pay1 (F := Ideal) (iblk0 V c 0 t) (iblk0 V c 1 t)) hj).trans ?_
  refine (payload_apply _ _ _ _).trans ?_
  rw [View.read_apply]
  show _ = ∑ k : Fin 128, table V c (ix2 ((((cfg0.win 2).blk t).view.emb j) 0) k)
    * weight V c (ix2 k ((((cfg0.win 2).blk t).view.emb j) 1))
  refine Finset.sum_congr rfl fun k _ => ?_
  congr 1
  · refine (tableBlock_apply V c t _ k _ ?_).trans rfl
    show win0_2.index t (0 : Fin 2) * 5000 + 1 * (j 0).val = win0_0.index t (0 : Fin 2) * 5000 + (j 0).val
    omega
  · refine (weightBlock_apply V c t k _).trans ?_
    congr 1
    funext a
    apply Fin.ext
    match a with
    | ⟨0, _⟩ => rfl
    | ⟨1, _⟩ => show (j 1).val = win0_2.index t (1 : Fin 2) * 128 + 1 * (j 1).val; have := (blockIndices t).2.2.2.2.2; omega

/-- A row and column of the output array lie in point t's block exactly when, on each axis, the coordinate is
    within the block's extent from the block's start. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the output array is written by some point: row r by point r / 5000, since the ten row
    blocks of 5000 rows tile the 50000 rows and each block spans all 128 columns. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_2 _, ?_⟩
  rw [mem_blk]
  obtain ⟨-, -, -, -, e4, e5⟩ := blockIndices ⟨(i 0).val / 5000, ht⟩
  have e4' : win0_2.index ⟨(i 0).val / 5000, ht⟩ (0 : Fin 2) = (i 0).val / 5000 := e4
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- After region 0 its output array holds the product of the node table by the first weight, whatever the region found in its arrays. -/
theorem array (c : Dev nD) :
    (dat0 (F := Ideal) V c).arrAt 2 cfg0.N = rowsTimes (n := 50000) (p := 128) (V c main_arg0) (V c main_arg3) :=
  (dat0 (F := Ideal) V c).arrAt_eq_of_cover 2 _ (fun t _ => flushed_eq V c t) cover

end Cert.Gcn.Region0

end
-- ==== Proof.Region1.lean ====
import proofs.«158317_j52415780880534_1_alg».proof.Proof.Gen.KernelIdeal.Frame
import proofs.«158317_j52415780880534_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-! # Region 1: bias added and clamped at zero, then times the second weight, row block by row block

The region walks ten grid points. At point t it loads rows 5000·t … 5000·t + 4999 of the 50000 × 128 table of
aggregated features, the one bias row and the whole 128 × 128 weight; it adds the bias row to every row of the
block, takes the maximum with zero, multiplies the result by the weight (accumulating from zero over the
extended reals, where narrowing an operand's format is the identity), and writes the 5000 × 128 product back as
rows 5000·t … of the output. Adding the bias row and clamping act entry by entry, and entry (r, q) of a product
reads row r of the left factor only, so each written block is the same block of the whole-array expression; the
ten blocks tile the 50000 rows, so the output ends as that expression. -/

/-- The pair of zero offsets is the constantly zero offset. -/
theorem hz : (![0, 0] : Fin 2 → Nat) = fun _ => 0 := funext fun a => by fin_cases a <;> rfl

/-! ## The row-block product: which operand entries an output entry reads

The product's dimension numbers contract the left operand's second axis with the right operand's first. So
output entry (r, q) at contraction position k reads the left operand at (r, k) and the right at (k, q). -/

/-- The left operand is read in the output's row … -/
theorem left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contraction position as its column; -/
theorem left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction position as its row … -/
theorem right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the output's column. -/
theorem right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 weight, accumulated from zero over the extended reals, read at entry
    (p, q): the sum over the 128 contracted features k of left (p, k) times right (k, q). The zero accumulator
    adds nothing. -/
theorem blockProduct_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact left_row _ _
    | ⟨1, _⟩ => exact (left_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (right_row _ _).trans hk
    | ⟨1, _⟩ => exact right_col _ _)
  rw [el, er]

/-- The left factor the region multiplies, at entry (p, k) of a block: the loaded entry plus the bias row's
    entry in column k, clamped below at zero. The splat the maximum is taken with is the extended real zero, and
    narrowing the format is the identity. -/
theorem clamped_apply (x0 : Vec Ideal S5000x128 .f32) (x1 : Vec Ideal S1x128 .f32) (p : Fin 5000) (k : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p k)
      = max (x0 (ix2 p k) + x1 (ix2 (0 : Fin 1) k)) 0 := by
  rw [maximumf_apply, addf_apply, broadcast_apply, shapeCast_self, shapeCast_self, broadcastTo_1b_ab_apply]
  show max _ (Ideal.ofBits .f32 0x00000000#32) = _
  rw [Ideal.ofBits_zero_f32]

/-- Region 1's stored value at entry (p, q) of a block: the clamped, biased row block times the loaded weight. -/
theorem payload_apply (x0 : Vec Ideal S5000x128 .f32) (x1 : Vec Ideal S1x128 .f32) (x2 : Vec Ideal S128x128 .f32)
    (p : Fin 5000) (q : Fin 128) :
    k1_pay1 (F := Ideal) x0 x1 x2 (ix2 p q)
      = ∑ k : Fin 128, max (x0 (ix2 p k) + x1 (ix2 (0 : Fin 1) k)) 0 * x2 (ix2 k q) := by
  unfold k1_pay1
  refine (blockProduct_apply _ _ p q).trans ?_
  refine Finset.sum_congr rfl fun k _ => ?_
  refine congrArg (· * x2 (ix2 k q)) ?_
  exact clamped_apply x0 x1 p k

/-! ## Where the blocks sit

Over the ten grid points: the feature table's block and the output's block are the same row block, block t at
point t, both starting at column 0; the bias row's block is always the whole row and the weight's the whole
weight. -/

/-- The aggregated features as the region finds them. -/
abbrev feats (c : Dev nD) : S50000x128.Idx → EReal := V c main_v43
/-- The bias row as the region finds it. -/
abbrev bias (c : Dev nD) : S1x128.Idx → EReal := V c main_v44
/-- The second weight as the region finds it. -/
abbrev weight (c : Dev nD) : S128x128.Idx → EReal := V c main_arg5

theorem blockIndices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature table's block at a point, read at (p, k), is the table at the block's first row plus p, column k. -/
theorem featsBlock_apply (c : Dev nD) (t : Fin cfg1.N) (p : Fin 5000) (k : Fin 128) (r : Fin 50000)
    (hr : r.val = win1_0.index t (0 : Fin 2) * 5000 + p.val) :
    (iblk1 V c 0 t : Vec Ideal S5000x128 .f32) (ix2 p k) = feats V c (ix2 r k) := by
  have e1 : win1_0.index t (1 : Fin 2) = 0 := (blockIndices t).2.1
  unfold iblk1
  rw [View.read_apply]
  show V c main_v43 _ = V c main_v43 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The bias row's block at every point is the whole row. -/
theorem biasBlock_apply (c : Dev nD) (t : Fin cfg1.N) (k : Fin 128) :
    (iblk1 V c 1 t : Vec Ideal S1x128 .f32) (ix2 (0 : Fin 1) k) = bias V c (ix2 (0 : Fin 1) k) := by
  obtain ⟨-, -, e2, e3, -, -, -, -⟩ := blockIndices t
  unfold iblk1
  rw [View.read_apply]
  show V c main_v44 _ = V c main_v44 _
  congr 1
  funext a
  apply Fin.ext
  match a with
  | ⟨0, _⟩ => show win1_1.index t (0 : Fin 2) * 1 + 1 * 0 = 0; omega
  | ⟨1, _⟩ => show win1_1.index t (1 : Fin 2) * 128 + 1 * k.val = k.val; omega

/-- The weight's block at every point is the whole weight. -/
theorem weightBlock_apply (c : Dev nD) (t : Fin cfg1.N) (k : Fin 128) (q q' : Fin 128) (hq : q'.val = q.val) :
    (iblk1 V c 2 t : Vec Ideal S128x128 .f32) (ix2 k q) = weight V c (ix2 k q') := by
  obtain ⟨-, -, -, -, e4, e5, -, -⟩ := blockIndices t
  unfold iblk1
  rw [View.read_apply]
  show V c main_arg5 _ = V c main_arg5 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q'.val; omega

/-! ## What a point writes back, and the whole array -/

/-- What point t writes back is block t of the whole-array expression: entry (p, q) of the block's product
    sums the clamped, biased row 5000·t + p of the feature table against the weight's column q, which is the
    whole expression's entry at that row. -/
theorem flushed_eq (c : Dev nD) (t : Fin cfg1.N) :
    (dat1 (F := Ideal) V c).flushed 3 t
      = ((cfg1.win 3).blk t).view.read (Elt Ideal)
          (rowsTimes (n := 50000) (p := 128) (biasRelu (n := 50000) (p := 128) (feats V c) (bias V c)) (weight V c)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, -, -, -, -, -, -, e7⟩ := blockIndices t
  funext j
  have hp : (j 0).val < 5000 := (j 0).isLt
  have hq : (j 1).val < 128 := (j 1).isLt
  have hj : (cfg1.win 3).xinj (grid1.coords t) j = ix2 (⟨(j 0).val, hp⟩ : Fin 5000) (⟨(j 1).val, hq⟩ : Fin 128) :=
    funext fun a => by match a with | ⟨0, _⟩ => rfl | ⟨1, _⟩ => rfl
  refine (congrArg (k1_pay1 (F := Ideal) (iblk1 V c 0 t) (iblk1 V c 1 t) (iblk1 V c 2 t)) hj).trans ?_
  refine (payload_apply _ _ _ _ _).trans ?_
  rw [View.read_apply]
  show _ = ∑ k : Fin 128, max (feats V c (ix2 ((((cfg1.win 3).blk t).view.emb j) 0) k) + bias V c (ix2 (0 : Fin 1) k)) 0
    * weight V c (ix2 k ((((cfg1.win 3).blk t).view.emb j) 1))
  refine Finset.sum_congr rfl fun k _ => ?_
  have hA := featsBlock_apply V c t ⟨(j 0).val, hp⟩ k ((((cfg1.win 3).blk t).view.emb j) 0) (by
    show win1_3.index t (0 : Fin 2) * 5000 + 1 * (j 0).val = win1_0.index t (0 : Fin 2) * 5000 + (j 0).val
    omega)
  have hB := biasBlock_apply V c t k
  have hW := weightBlock_apply V c t k ⟨(j 1).val, hq⟩ ((((cfg1.win 3).blk t).view.emb j) 1) (by
    show win1_3.index t (1 : Fin 2) * 128 + 1 * (j 1).val = (j 1).val
    omega)
  rw [hA, hB, hW]

/-- A row and column of the output array lie in point t's block exactly when, on each axis, the coordinate is
    within the block's extent from the block's start. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every entry of the output array is written by some point: row r by point r / 5000, since the ten row
    blocks of 5000 rows tile the 50000 rows and each block spans all 128 columns. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_3 _, ?_⟩
  rw [mem_blk]
  obtain ⟨-, -, -, -, -, -, e6, e7⟩ := blockIndices ⟨(i 0).val / 5000, ht⟩
  have e6' : win1_3.index ⟨(i 0).val / 5000, ht⟩ (0 : Fin 2) = (i 0).val / 5000 := e6
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 128 ≤ (i 1).val ∧ (i 1).val < win1_3.index ⟨(i 0).val / 5000, ht⟩ (1 : Fin 2) * 128 + 128; omega

/-- After region 1 its output array holds (bias row added, clamped at zero) times the second weight. -/
theorem array (c : Dev nD) :
    (dat1 (F := Ideal) V c).arrAt 3 cfg1.N
      = rowsTimes (n := 50000) (p := 128) (biasRelu (n := 50000) (p := 128) (V c main_v43) (V c main_v44)) (V c main_arg5) :=
  (dat1 (F := Ideal) V c).arrAt_eq_of_cover 3 _ (fun t _ => flushed_eq V c t) cover

end Cert.Gcn.Region1

end
-- ==== Proof.Region2.lean ====
import proofs.«158317_j52415780880534_1_alg».proof.Proof.Gen.KernelIdeal.Frame
import proofs.«158317_j52415780880534_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The offset of a whole-buffer access: zero on both axes. -/
theorem origin : (![0, 0] : Fin 2 → Nat) = fun _ => 0 := funext fun a => by fin_cases a <;> rfl

/-- The node table the region reads, as a plain 50000 × 128 array of extended reals. -/
abbrev table (c : Dev nD) : (⟨2, ![50000, 128]⟩ : Shape).Idx → EReal := V c main_v58

/-- The bias row the region reads, as a plain 1 × 128 array of extended reals. -/
abbrev bias (c : Dev nD) : (⟨2, ![1, 128]⟩ : Shape).Idx → EReal := V c main_v59

/-- The body's stored value at row `p`, feature `q` of a block: the block's entry plus the bias row's entry at
    `q`, clamped below at zero. The shape casts are identities, the broadcast repeats the one bias row, the
    constant is the real zero. -/
theorem pay_apply (x0 : Vec Ideal S5000x128 .f32) (x1 : Vec Ideal S1x128 .f32) (p : Fin 5000) (q : Fin 128) :
    k2_pay1 x0 x1 (ix2 p q) = max (x0 (ix2 p q) + x1 (ix2 0 q)) 0 := by
  unfold k2_pay1
  simp only [maximumf_apply, addf_apply, broadcast_apply, shapeCast_self, broadcastTo_1b_ab_apply]
  show max _ (Ideal.ofBits .f32 0x00000000#32) = _
  rw [Ideal.ofBits_zero_f32]

/-- The three index maps over the ten grid points: the table's and the output's block index is (t, 0), the bias
    row's is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Grid point `t` writes back rows 5000·t … 5000·t + 4999 of the whole-array function: row `p` of its table block
    is row 5000·t + p of the table, its bias block is the whole bias row, and the body's value there is the
    table entry plus the bias entry clamped at zero. -/
theorem flushed_eq (c : Dev nD) (t : Fin cfg2.N) :
    (dat2 (F := Ideal) V c).flushed 2 t
      = ((cfg2.win 2).blk t).view.read (Elt Ideal) (biasRelu (n := 50000) (p := 128) (V c main_v58) (V c main_v59)) := by
  show (cfg2.win 2).cut (grid2.coords t) ((dat2 (F := Ideal) V c).after 2 t) = _
  rw [after2_2]
  unfold out2_2
  rw [View.canon_unit_zero origin]
  simp only [View.ld_unit_zero (S := S5000x128) origin, View.ld_unit_zero (S := S1x128) origin]
  obtain ⟨e0, e1, e2, e3, e4, e5, ht⟩ := idx_facts t
  funext j
  obtain ⟨p, q, rfl⟩ : ∃ (p : Fin 5000) (q : Fin 128), j = ix2 p q := ⟨j 0, j 1, eq_ix2 j⟩
  have hp : p.val < 5000 := p.isLt
  show k2_pay1 (iblk2 V c 0 t) (iblk2 V c 1 t) (ix2 p q)
      = biasRelu (table V c) (bias V c) (((cfg2.win 2).blk t).view.emb (ix2 p q))
  refine (pay_apply _ _ p q).trans ?_
  have hout : ((cfg2.win 2).blk t).view.emb (ix2 p q)
      = ix2 (n0 := 50000) (n1 := 128) ⟨t.val * 5000 + p.val, by omega⟩ q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  have hin : iblk2 V c 0 t (ix2 p q) = table V c (ix2 (n0 := 50000) (n1 := 128) ⟨t.val * 5000 + p.val, by omega⟩ q) := by
    unfold iblk2
    rw [View.read_apply]
    show table V c (((cfg2.win 0).blk t).view.emb (ix2 p q)) = _
    refine congrArg (table V c) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  have hb : iblk2 V c 1 t (ix2 0 q) = bias V c (ix2 (n0 := 1) (n1 := 128) 0 q) := by
    unfold iblk2
    rw [View.read_apply]
    show bias V c (((cfg2.win 1).blk t).view.emb (ix2 0 q)) = _
    refine congrArg (bias V c) (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  rw [hout, biasRelu_apply, hin, hb]

/-- An index of the output array lies in point `t`'s block exactly when each coordinate lies in the block's range
    on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v60).slice (win2_2.rect t)).set ↔ _
  rw [View.set_slice_whole, Rect.mem_set_unit]
  exact Iff.rfl

/-- Every row of the output lies in some point's block: row `r` in that of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by show (i 0).val / 5000 < 10; omega⟩
  obtain ⟨-, -, -, -, e4, e5, -⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its output array holds its input with the bias row added, clamped at zero. -/
theorem array (c : Dev nD) :
    (dat2 (F := Ideal) V c).arrAt 2 cfg2.N = biasRelu (n := 50000) (p := 128) (V c main_v58) (V c main_v59) :=
  (dat2 (F := Ideal) V c).arrAt_eq_of_cover 2 (biasRelu (n := 50000) (p := 128) (V c main_v58) (V c main_v59))
    (fun t _ => flushed_eq V c t) cover

end Cert.Gcn.Region2

end
-- ==== Proof.Region3.lean ====
import proofs.«158317_j52415780880534_1_alg».proof.Proof.Gen.KernelIdeal.Frame
import proofs.«158317_j52415780880534_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region3

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The offset of a whole-buffer access: zero on both axes. -/
theorem origin : (![0, 0] : Fin 2 → Nat) = fun _ => 0 := funext fun a => by fin_cases a <;> rfl

/-- The pooled table the region reads, as a plain 64 × 128 array of extended reals. -/
abbrev pooled (c : Dev nD) : (⟨2, ![64, 128]⟩ : Shape).Idx → EReal := V c main_v72

/-- The last layer's weight, as a plain 128 × 16 array of extended reals. -/
abbrev weight (c : Dev nD) : (⟨2, ![128, 16]⟩ : Shape).Idx → EReal := V c main_arg7

/-- The last layer's bias row, as a plain 1 × 16 array of extended reals. -/
abbrev bias (c : Dev nD) : (⟨2, ![1, 16]⟩ : Shape).Idx → EReal := V c main_v73

/-! The product contracts axis 1 of the left factor with axis 0 of the right factor and has no batch axes, so at
    output index (r, q) and contraction position k the left factor is read at (r, k) and the right at (k, q):
    one fact per operand axis. -/

/-- The left operand's row is the output's row. -/
theorem lhs_row (i : S64x16.Idx) (k : dot_S64x128_S128x16_S64x16_1_0_0_1_n_n.contr.Idx) :
    (dot_S64x128_S128x16_S64x16_1_0_0_1_n_n.lhsIdx i k 0).val = (i 0).val := by
  unfold DotDims.lhsIdx
  rw [dif_neg (show ¬(0 : Fin S64x128.rank) ∈ dot_S64x128_S128x16_S64x16_1_0_0_1_n_n.lhsBatch by decide), dif_pos (show (0 : Fin S64x128.rank) ∈ dot_S64x128_S128x16_S64x16_1_0_0_1_n_n.lhsNonContracting by decide)]
  rfl

/-- The left operand's column is the contraction position. -/
theorem lhs_col (i : S64x16.Idx) (k : dot_S64x128_S128x16_S64x16_1_0_0_1_n_n.contr.Idx) :
    (dot_S64x128_S128x16_S64x16_1_0_0_1_n_n.lhsIdx i k 1).val = (k ⟨0, by decide⟩).val :=
  dot_S64x128_S128x16_S64x16_1_0_0_1_n_n.lhsIdx_val_of_single rfl i k

/-- The right operand's row is the contraction position. -/
theorem rhs_row (i : S64x16.Idx) (k : dot_S64x128_S128x16_S64x16_1_0_0_1_n_n.contr.Idx) :
    (dot_S64x128_S128x16_S64x16_1_0_0_1_n_n.rhsIdx i k 0).val = (k ⟨0, by decide⟩).val :=
  dot_S64x128_S128x16_S64x16_1_0_0_1_n_n.rhsIdx_val_of_single rfl i k

/-- The right operand's column is the output's column. -/
theorem rhs_col (i : S64x16.Idx) (k : dot_S64x128_S128x16_S64x16_1_0_0_1_n_n.contr.Idx) :
    (dot_S64x128_S128x16_S64x16_1_0_0_1_n_n.rhsIdx i k 1).val = (i 1).val := by
  unfold DotDims.rhsIdx
  rw [dif_neg (show ¬(1 : Fin S128x16.rank) ∈ dot_S64x128_S128x16_S64x16_1_0_0_1_n_n.rhsBatch by decide), dif_pos (show (1 : Fin S128x16.rank) ∈ dot_S64x128_S128x16_S64x16_1_0_0_1_n_n.rhsNonContracting by decide)]
  rfl

/-- The product into a zero accumulator, read at row `r`, column `q`: the sum over the 128 contracted features
    `k` of the left factor at (r, k) times the right factor at (k, q). The sum over the one-axis contraction
    shape is re-indexed by its single coordinate. -/
theorem product_apply {φ₁ φ₂ : FTy} (l : FVec Ideal S64x128 φ₁) (w : FVec Ideal S128x16 φ₂) (r : Fin 64) (q : Fin 16) :
    FloatOps.matmul dot_S64x128_S128x16_S64x16_1_0_0_1_n_n none l w (constant S64x16 .f32 0x00000000#32) (ix2 r q)
      = ∑ k : Fin 128, l (ix2 r k) * w (ix2 k q) := by
  rw [Ideal.matmul_constant_zero_apply, ← Equiv.sum_comp (ValueIdx.contrEquiv1 dot_S64x128_S128x16_S64x16_1_0_0_1_n_n 128 rfl rfl).symm]
  refine Finset.sum_congr rfl fun k _ => ?_
  have hk := ValueIdx.contrEquiv1_symm_val dot_S64x128_S128x16_S64x16_1_0_0_1_n_n 128 rfl rfl k
  have el : dot_S64x128_S128x16_S64x16_1_0_0_1_n_n.lhsIdx (ix2 r q) ((ValueIdx.contrEquiv1 dot_S64x128_S128x16_S64x16_1_0_0_1_n_n 128 rfl rfl).symm k) = ix2 (n0 := 64) (n1 := 128) r k := funext fun a => Fin.ext (by
    match a with
    | ⟨0, _⟩ => exact lhs_row _ _
    | ⟨1, _⟩ => exact (lhs_col _ _).trans hk)
  have er : dot_S64x128_S128x16_S64x16_1_0_0_1_n_n.rhsIdx (ix2 r q) ((ValueIdx.contrEquiv1 dot_S64x128_S128x16_S64x16_1_0_0_1_n_n 128 rfl rfl).symm k) = ix2 (n0 := 128) (n1 := 16) k q := funext fun a => Fin.ext (by
    match a with
    | ⟨0, _⟩ => exact (rhs_row _ _).trans hk
    | ⟨1, _⟩ => exact rhs_col _ _)
  rw [el, er]

/-- The body's stored value at row `r`, column `q`: the product of its two loaded factors at (r, q) plus the
    bias row's entry at `q`. Narrowing a factor's element type changes no extended real, the shape casts are
    identities, the broadcast repeats the one bias row. -/
theorem pay_apply (x0 : Vec Ideal S64x128 .f32) (x1 : Vec Ideal S128x16 .f32) (x2 : Vec Ideal S1x16 .f32) (r : Fin 64) (q : Fin 16) :
    k3_pay1 x0 x1 x2 (ix2 r q) = (∑ k : Fin 128, x0 (ix2 r k) * x1 (ix2 k q)) + x2 (ix2 0 q) := by
  unfold k3_pay1
  simp only [addf_apply, shapeCast_self, broadcastTo_1b_ab_apply]
  refine congrArg (· + x2 (ix2 0 q)) ((product_apply _ _ r q).trans ?_)
  exact Finset.sum_congr rfl fun k _ => by rw [truncf_apply, truncf_apply]

/-- Every window's block index at the one grid point is (0, 0): each window is its whole array. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The one grid point writes back the whole-array function: each of its blocks is the whole of its array, so
    the body's value at (r, q) is the product of the pooled table with the weight at (r, q) plus the bias entry
    at `q`. -/
theorem flushed_eq (c : Dev nD) (t : Fin cfg3.N) :
    (dat3 (F := Ideal) V c).flushed 3 t
      = ((cfg3.win 3).blk t).view.read (Elt Ideal)
          (addRow (n := 64) (p := 16) (rowsTimes (n := 64) (p := 16) (V c main_v72) (V c main_arg7)) (V c main_v73)) := by
  show (cfg3.win 3).cut (grid3.coords t) ((dat3 (F := Ideal) V c).after 3 t) = _
  rw [after3_3]
  unfold out3_3
  rw [View.canon_unit_zero origin]
  simp only [View.ld_unit_zero (S := S64x128) origin, View.ld_unit_zero (S := S128x16) origin, View.ld_unit_zero (S := S1x16) origin]
  obtain ⟨e0, e1, e2, e3, e4, e5, e6, e7⟩ := idx_facts t
  funext j
  obtain ⟨r, q, rfl⟩ : ∃ (r : Fin 64) (q : Fin 16), j = ix2 r q := ⟨j 0, j 1, eq_ix2 j⟩
  show k3_pay1 (iblk3 V c 0 t) (iblk3 V c 1 t) (iblk3 V c 2 t) (ix2 r q)
      = addRow (rowsTimes (pooled V c) (weight V c)) (bias V c) (((cfg3.win 3).blk t).view.emb (ix2 r q))
  refine (pay_apply _ _ _ r q).trans ?_
  have hout : ((cfg3.win 3).blk t).view.emb (ix2 r q) = ix2 (n0 := 64) (n1 := 16) r q := by
    funext a; apply Fin.ext
    match a with
    | ⟨0, _⟩ => show win3_3.index t (0 : Fin 2) * 64 + 1 * r.val = r.val; omega
    | ⟨1, _⟩ => show win3_3.index t (1 : Fin 2) * 16 + 1 * q.val = q.val; omega
  have hl : ∀ k : Fin 128, iblk3 V c 0 t (ix2 r k) = pooled V c (ix2 r k) := fun k => by
    unfold iblk3
    rw [View.read_apply]
    show pooled V c (((cfg3.win 0).blk t).view.emb (ix2 r k)) = _
    refine congrArg (pooled V c) (funext fun a => Fin.ext ?_)
    match a with
    | ⟨0, _⟩ => show win3_0.index t (0 : Fin 2) * 64 + 1 * r.val = r.val; omega
    | ⟨1, _⟩ => show win3_0.index t (1 : Fin 2) * 128 + 1 * k.val = k.val; omega
  have hw : ∀ k : Fin 128, iblk3 V c 1 t (ix2 k q) = weight V c (ix2 k q) := fun k => by
    unfold iblk3
    rw [View.read_apply]
    show weight V c (((cfg3.win 1).blk t).view.emb (ix2 k q)) = _
    refine congrArg (weight V c) (funext fun a => Fin.ext ?_)
    match a with
    | ⟨0, _⟩ => show win3_1.index t (0 : Fin 2) * 128 + 1 * k.val = k.val; omega
    | ⟨1, _⟩ => show win3_1.index t (1 : Fin 2) * 16 + 1 * q.val = q.val; omega
  have hb : iblk3 V c 2 t (ix2 0 q) = bias V c (ix2 (n0 := 1) (n1 := 16) 0 q) := by
    unfold iblk3
    rw [View.read_apply]
    show bias V c (((cfg3.win 2).blk t).view.emb (ix2 0 q)) = _
    refine congrArg (bias V c) (funext fun a => Fin.ext ?_)
    match a with
    | ⟨0, _⟩ => show win3_2.index t (0 : Fin 2) * 1 + 1 * 0 = 0; omega
    | ⟨1, _⟩ => show win3_2.index t (1 : Fin 2) * 16 + 1 * q.val = q.val; omega
  rw [hout, addRow_apply, rowsTimes_apply, hb]
  exact congrArg (· + bias V c (ix2 0 q)) (Finset.sum_congr rfl fun k _ => by rw [hl k, hw k])

/-- An index of the output array lies in point `t`'s block exactly when each coordinate lies in the block's range
    on its axis. -/
theorem mem_blk (t : Fin cfg3.N) (i : S64x16.Idx) :
    i ∈ ((cfg3.win 3).blk t).view.set ↔ ∀ a : Fin 2, win3_3.index t a * S64x16.size a ≤ (i a).val ∧ (i a).val < win3_3.index t a * S64x16.size a + S64x16.size a := by
  show i ∈ ((View.whole main_v74).slice (win3_3.rect t)).set ↔ _
  rw [View.set_slice_whole, Rect.mem_set_unit]
  exact Iff.rfl

/-- The one grid point's block is the whole output array, so it covers every index. -/
theorem cover (i : S64x16.Idx) :
    ∃ t : Fin cfg3.N, (cfg3.win 3).flush t = true ∧ i ∈ ((cfg3.win 3).blk t).view.set := by
  have hi0 : (i 0).val < 64 := (i 0).isLt
  have hi1 : (i 1).val < 16 := (i 1).isLt
  let t : Fin cfg3.N := ⟨0, by decide⟩
  obtain ⟨-, -, -, -, -, -, e6, e7⟩ := idx_facts t
  refine ⟨t, flush3_3 t, ?_⟩
  rw [mem_blk]
  intro a
  match a with
  | ⟨0, _⟩ => show win3_3.index t (0 : Fin 2) * 64 ≤ (i 0).val ∧ (i 0).val < win3_3.index t (0 : Fin 2) * 64 + 64; omega
  | ⟨1, _⟩ => show win3_3.index t (1 : Fin 2) * 16 ≤ (i 1).val ∧ (i 1).val < win3_3.index t (1 : Fin 2) * 16 + 16; omega

/-- After region 3 its output array holds the pooled table times the last weight, the bias row added. -/
theorem array (c : Dev nD) :
    (dat3 (F := Ideal) V c).arrAt 3 cfg3.N
      = addRow (n := 64) (p := 16) (rowsTimes (n := 64) (p := 16) (V c main_v72) (V c main_arg7)) (V c main_v73) :=
  (dat3 (F := Ideal) V c).arrAt_eq_of_cover 3
    (addRow (n := 64) (p := 16) (rowsTimes (n := 64) (p := 16) (V c main_v72) (V c main_arg7)) (V c main_v73))
    (fun t _ => flushed_eq V c t) cover

end Cert.Gcn.Region3

end
-- ==== Proof.KernelValue.lean ====
/-
  The kernel's result as a function of its arguments, on the extended reals. Boundary by boundary: region 0 leaves
  the product of the node table with the first weight; the host passes messages over it and lays the first bias out
  as a row; region 1 adds that row, clamps, and multiplies by the second weight, which together with the message
  passing before it is the first layer followed by the second product; the host passes messages again; region 2
  adds the second bias row and clamps, which completes the second layer; the host takes the mean per graph; region 3
  multiplies by the last weight and adds the last bias row. Each region's array is one whole-array function of the
  arrays it found (the region lemmas), each host step is read off the fold, and the carried buffers are what they
  were at region 0's entry, so the composition is the model.
-/
import proofs.«158317_j52415780880534_1_alg».proof.Proof.HostChain
import proofs.«158317_j52415780880534_1_alg».proof.Proof.Model
import proofs.«158317_j52415780880534_1_alg».proof.Proof.Region0
import proofs.«158317_j52415780880534_1_alg».proof.Proof.Region1
import proofs.«158317_j52415780880534_1_alg».proof.Proof.Region2
import proofs.«158317_j52415780880534_1_alg».proof.Proof.Region3

set_option maxRecDepth 16384

noncomputable section

namespace Cert.Gcn.KernelValue

open Idealize.ShloMosaic Idealize.ShloMosaic.TcCoe Idealize.SL.Sem
open Cert.KernelIdeal Cert.KernelIdeal.Gen Cert.Gcn Cert.Gcn.Chain

variable (m : (ℓ : Loc nD τ sig) → Buf (Elt Ideal) ℓ) (ρ : Dev nD → PrngReg) (c : Dev nD)

/-- After region 0: the node table times the first weight. -/
theorem product1 : W4 (F := Ideal) m ρ c (Proc.devRef .tc main_v30) = (rowsTimes (n := 50000) (p := 128) (m ((c : Thread nD τ).loc main_arg0)) (m ((c : Thread nD τ).loc main_arg3))) := by
  rw [out4, Region0.array (V3 m ρ) c]
  show rowsTimes (n := 50000) (p := 128) (W3 (F := Ideal) m ρ c (Proc.devRef .tc main_arg0)) (W3 (F := Ideal) m ρ c (Proc.devRef .tc main_arg3)) = _
  rw [launched3 m ρ c main_arg0 (by decide), launched3 m ρ c main_arg3 (by decide)]

/-- After the first host stretch: the messages passed over that product. -/
theorem messages1 : W5 (F := Ideal) m ρ c (Proc.devRef .tc main_v43) = (aggregate (F := Ideal) (rowsTimes (n := 50000) (p := 128) (m ((c : Thread nD τ).loc main_arg0)) (m ((c : Thread nD τ).loc main_arg3))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) := by
  rw [agg5, product1, kept4 m ρ c main_v3 (by decide), kept4 m ρ c main_v6 (by decide), kept4 m ρ c main_v29 (by decide),
    src3, dst3, nrm3]

/-- and the first bias as a row. -/
theorem biasRow1 : W5 (F := Ideal) m ρ c (Proc.devRef .tc main_v44) = (shapeCast S1x128 (m ((c : Thread nD τ).loc main_arg4)) shapeCasts_S128_S1x128) := by
  rw [row5, kept4 m ρ c main_arg4 (by decide), launched3 m ρ c main_arg4 (by decide)]

/-- After region 1: the first layer times the second weight. -/
theorem product2 : W6 (F := Ideal) m ρ c (Proc.devRef .tc main_v45) = (rowsTimes (n := 50000) (p := 128) (layer (m ((c : Thread nD τ).loc main_arg0)) (m ((c : Thread nD τ).loc main_arg3)) (shapeCast S1x128 (m ((c : Thread nD τ).loc main_arg4)) shapeCasts_S128_S1x128) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (m ((c : Thread nD τ).loc main_arg5))) := by
  rw [out6, Region1.array (V5 m ρ) c]
  show rowsTimes (n := 50000) (p := 128) (biasRelu (n := 50000) (p := 128) (W5 (F := Ideal) m ρ c (Proc.devRef .tc main_v43)) (W5 (F := Ideal) m ρ c (Proc.devRef .tc main_v44))) (W5 (F := Ideal) m ρ c (Proc.devRef .tc main_arg5)) = _
  rw [messages1, biasRow1, kept5 m ρ c main_arg5 (by decide), launched3 m ρ c main_arg5 (by decide)]
  rfl

/-- After the second host stretch: the messages passed over that product. -/
theorem messages2 : W7 (F := Ideal) m ρ c (Proc.devRef .tc main_v58) = (aggregate (F := Ideal) (rowsTimes (n := 50000) (p := 128) (layer (m ((c : Thread nD τ).loc main_arg0)) (m ((c : Thread nD τ).loc main_arg3)) (shapeCast S1x128 (m ((c : Thread nD τ).loc main_arg4)) shapeCasts_S128_S1x128) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (m ((c : Thread nD τ).loc main_arg5))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) := by
  rw [agg7, product2, kept6 m ρ c main_v3 (by decide), kept6 m ρ c main_v6 (by decide), kept6 m ρ c main_v29 (by decide),
    src3, dst3, nrm3]

/-- and the second bias as a row. -/
theorem biasRow2 : W7 (F := Ideal) m ρ c (Proc.devRef .tc main_v59) = (shapeCast S1x128 (m ((c : Thread nD τ).loc main_arg6)) shapeCasts_S128_S1x128) := by
  rw [row7, kept6 m ρ c main_arg6 (by decide), launched3 m ρ c main_arg6 (by decide)]

/-- After region 2: the second layer. -/
theorem layers : W8 (F := Ideal) m ρ c (Proc.devRef .tc main_v60) = (layer (layer (m ((c : Thread nD τ).loc main_arg0)) (m ((c : Thread nD τ).loc main_arg3)) (shapeCast S1x128 (m ((c : Thread nD τ).loc main_arg4)) shapeCasts_S128_S1x128) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (m ((c : Thread nD τ).loc main_arg5)) (shapeCast S1x128 (m ((c : Thread nD τ).loc main_arg6)) shapeCasts_S128_S1x128) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) := by
  rw [out8, Region2.array (V7 m ρ) c]
  show biasRelu (n := 50000) (p := 128) (W7 (F := Ideal) m ρ c (Proc.devRef .tc main_v58)) (W7 (F := Ideal) m ρ c (Proc.devRef .tc main_v59)) = _
  rw [messages2, biasRow2]
  rfl

/-- After the last host stretch: the mean per graph, -/
theorem pooled : W9 (F := Ideal) m ρ c (Proc.devRef .tc main_v72) = (meanPool (F := Ideal) (layer (layer (m ((c : Thread nD τ).loc main_arg0)) (m ((c : Thread nD τ).loc main_arg3)) (shapeCast S1x128 (m ((c : Thread nD τ).loc main_arg4)) shapeCasts_S128_S1x128) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (m ((c : Thread nD τ).loc main_arg5)) (shapeCast S1x128 (m ((c : Thread nD τ).loc main_arg6)) shapeCasts_S128_S1x128) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (m ((c : Thread nD τ).loc main_arg2))) := by
  rw [pool9, layers, kept8 m ρ c main_arg2 (by decide), launched3 m ρ c main_arg2 (by decide)]

/-- and the last bias as a row. -/
theorem biasRow3 : W9 (F := Ideal) m ρ c (Proc.devRef .tc main_v73) = (shapeCast S1x16 (m ((c : Thread nD τ).loc main_arg8)) shapeCasts_S16_S1x16) := by
  rw [row9, kept8 m ρ c main_arg8 (by decide), launched3 m ρ c main_arg8 (by decide)]

/-- THE RESULT: what the program leaves in its result buffer is the model of its arguments, the biases as rows. -/
theorem result : W10 (F := Ideal) m ρ c (Proc.devRef .tc main_v74)
    = model (m ((c : Thread nD τ).loc main_arg0)) (m ((c : Thread nD τ).loc main_arg1)) (m ((c : Thread nD τ).loc main_arg2)) (m ((c : Thread nD τ).loc main_arg3)) (shapeCast S1x128 (m ((c : Thread nD τ).loc main_arg4)) shapeCasts_S128_S1x128)
        (m ((c : Thread nD τ).loc main_arg5)) (shapeCast S1x128 (m ((c : Thread nD τ).loc main_arg6)) shapeCasts_S128_S1x128) (m ((c : Thread nD τ).loc main_arg7)) (shapeCast S1x16 (m ((c : Thread nD τ).loc main_arg8)) shapeCasts_S16_S1x16) := by
  rw [out10, Region3.array (V9 m ρ) c]
  show addRow (n := 64) (p := 16) (rowsTimes (n := 64) (p := 16) (W9 (F := Ideal) m ρ c (Proc.devRef .tc main_v72)) (W9 (F := Ideal) m ρ c (Proc.devRef .tc main_arg7))) (W9 (F := Ideal) m ρ c (Proc.devRef .tc main_v73)) = _
  rw [pooled, biasRow3, kept9 m ρ c main_arg7 (by decide), launched3 m ρ c main_arg7 (by decide)]
  rfl

end Cert.Gcn.KernelValue

end
-- ==== Proof.RefValue.lean ====
/-
  What the reference computes, layer by layer. One layer of the reference is: the dense product of the node table
  with the layer's weight, message passing over the edges (`aggregate`), the bias added to every row, the maximum
  with zero. Two layers, the mean over each graph's nodes, one more dense product and a bias give the result. The
  reference's run states its result as one long term of the arguments; that term IS this composition, the same
  operations in the same order, with the edge endpoints and the edge weights written out again at each use.
-/
import proofs.«158317_j52415780880534_1_alg».proof.Proof.RefRun
import proofs.«158317_j52415780880534_1_alg».proof.Proof.Graph

noncomputable section

namespace Cert.Gcn

open Idealize.ShloMosaic Idealize.ShloMosaic.TcCoe Idealize.SL.Sem
open Cert.ReferenceIdeal Cert.ReferenceIdeal.Gen

variable {F : FTy → Type} [FloatOps F]

/-- One layer as the reference computes it: product with the weight, message passing, bias, clamp at zero. -/
def hostLayer (h : (⟨S50000x128, .f32⟩ : BufTy).Contents (Elt F)) (W : (⟨S128x128, .f32⟩ : BufTy).Contents (Elt F))
    (b : (⟨S128, .f32⟩ : BufTy).Contents (Elt F)) (src dst : (⟨S850000, .i32⟩ : BufTy).Contents (Elt F))
    (nrm : (⟨S850000, .f32⟩ : BufTy).Contents (Elt F)) : (⟨S50000x128, .f32⟩ : BufTy).Contents (Elt F) :=
  maximumf (addf (aggregate (Host.dotGeneral dot_S50000x128_S128x128_S50000x128_1_0_0_1_n_n none h W) src dst nrm) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The reference's result: two layers over the same edges, the mean per graph, the last product and its bias. -/
def hostOut (x : (⟨S50000x128, .f32⟩ : BufTy).Contents (Elt F)) (ei : (⟨S2x800000, .i32⟩ : BufTy).Contents (Elt F))
    (bt : (⟨S50000, .i32⟩ : BufTy).Contents (Elt F)) (W1 : (⟨S128x128, .f32⟩ : BufTy).Contents (Elt F))
    (b1 : (⟨S128, .f32⟩ : BufTy).Contents (Elt F)) (W2 : (⟨S128x128, .f32⟩ : BufTy).Contents (Elt F))
    (b2 : (⟨S128, .f32⟩ : BufTy).Contents (Elt F)) (Wfc : (⟨S128x16, .f32⟩ : BufTy).Contents (Elt F))
    (bfc : (⟨S16, .f32⟩ : BufTy).Contents (Elt F)) : (⟨S64x16, .f32⟩ : BufTy).Contents (Elt F) :=
  addf (Host.dotGeneral dot_S64x128_S128x16_S64x16_1_0_0_1_n_n none (meanPool (hostLayer (hostLayer x W1 b1 (srcOf ei) (dstOf ei) (normOf (srcOf ei) (dstOf ei))) W2 b2 (srcOf ei) (dstOf ei) (normOf (srcOf ei) (dstOf ei))) bt) Wfc) (broadcastInDim S64x16 ![0, 1] bcast_S1x16_S64x16_0_1 (broadcastInDim S1x16 ![1] bcast_S16_S1x16_1 bfc))

/-- The term the reference's run ends at is that composition of the arguments. -/
theorem res_eq_hostOut (m : (ℓ : Loc nD τ sig) → Buf (Elt F) ℓ) (c : Dev nD) :
    Cert.ReferenceIdeal.Value.res_main_v96 (F := F) m c
      = hostOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v96 hostOut hostLayer aggregate meanPool normOf invSqrtDeg degOf wrap srcOf dstOf
  rfl

end Cert.Gcn

end
-- ==== Proof.RefBridge.lean ====
/-
  The reference's dense steps read entry by entry, on the extended reals. Its `dot_general` is the plain sum over
  the contracted features (`rowsTimes`); its bias step broadcasts the 128-entry bias first to one row and then to
  every row, adds, and takes the maximum with a broadcast zero, which entry by entry is `biasRelu` of the bias laid
  out as a row; its last bias is `addRow` the same way. With these three readings the reference's layered
  composition becomes the same composition over the plain functions, the sparse steps between them untouched.
-/
import proofs.«158317_j52415780880534_1_alg».proof.Proof.RefValue
import proofs.«158317_j52415780880534_1_alg».proof.Proof.Dense
import proofs.«158317_j52415780880534_1_alg».proof.Proof.Model
import Idealize.ShloMosaic.Lib.Pipeline.Value
import Idealize.ShloMosaic.Lib.ValueIdx
import Idealize.ShloMosaic.PureOps.Ideal.Laws

set_option maxRecDepth 16384

noncomputable section

open scoped BigOperators

namespace Cert.Gcn

open Idealize.ShloMosaic Idealize.ShloMosaic.TcCoe Idealize.SL.Sem Idealize.ShloMosaic.ValueIdx
open Cert.ReferenceIdeal Cert.ReferenceIdeal.Gen

/-! ### The host's product of an 50000 × 128 table with a 128 × 128 weight, entry by entry -/

theorem lhsA_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsA_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhsA_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhsA_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- On the extended reals the host's contraction is the plain sum over the 128 contracted features: entry (r, q) reads
    row r of the table and column q of the weight. -/
theorem dotA_eq (X : FVec Ideal S50000x128 .f32) (W : FVec Ideal S128x128 .f32) :
    Host.dotGeneral (F := Ideal) dot_S50000x128_S128x128_S50000x128_1_0_0_1_n_n none X W = rowsTimes (n := 50000) (p := 128) X W := by
  funext i
  simp only [Host.dotGeneral]
  rw [Ideal.dotGeneral_apply, ← Equiv.sum_comp (ValueIdx.contrEquiv1 dot_S50000x128_S128x128_S50000x128_1_0_0_1_n_n 128 rfl rfl).symm]
  unfold rowsTimes
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (n0 := 50000) (n1 := 128) (i 0) k := funext fun a => Fin.ext (by
    match a with
    | ⟨0, _⟩ => exact lhsA_0 _ _
    | ⟨1, _⟩ => exact (lhsA_1 _ _).trans hk)
  have er : dot_S50000x128_S128x128_S50000x128_1_0_0_1_n_n.rhsIdx i ((ValueIdx.contrEquiv1 dot_S50000x128_S128x128_S50000x128_1_0_0_1_n_n 128 rfl rfl).symm k) = ix2 (n0 := 128) (n1 := 128) k (i 1) := funext fun a => Fin.ext (by
    match a with
    | ⟨0, _⟩ => exact (rhsA_0 _ _).trans hk
    | ⟨1, _⟩ => exact rhsA_1 _ _)
  rw [el, er]

/-! ### The host's product of an 64 × 128 table with a 128 × 16 weight, entry by entry -/

theorem lhsB_0 (i : S64x16.Idx) (q : dot_S64x128_S128x16_S64x16_1_0_0_1_n_n.contr.Idx) :
    (dot_S64x128_S128x16_S64x16_1_0_0_1_n_n.lhsIdx i q 0).val = (i 0).val := by
  unfold DotDims.lhsIdx
  rw [dif_neg (show ¬(0 : Fin S64x128.rank) ∈ dot_S64x128_S128x16_S64x16_1_0_0_1_n_n.lhsBatch by decide), dif_pos (show (0 : Fin S64x128.rank) ∈ dot_S64x128_S128x16_S64x16_1_0_0_1_n_n.lhsNonContracting by decide)]
  rfl
theorem lhsB_1 (i : S64x16.Idx) (q : dot_S64x128_S128x16_S64x16_1_0_0_1_n_n.contr.Idx) :
    (dot_S64x128_S128x16_S64x16_1_0_0_1_n_n.lhsIdx i q 1).val = (q ⟨0, by decide⟩).val :=
  dot_S64x128_S128x16_S64x16_1_0_0_1_n_n.lhsIdx_val_of_single rfl i q
theorem rhsB_0 (i : S64x16.Idx) (q : dot_S64x128_S128x16_S64x16_1_0_0_1_n_n.contr.Idx) :
    (dot_S64x128_S128x16_S64x16_1_0_0_1_n_n.rhsIdx i q 0).val = (q ⟨0, by decide⟩).val :=
  dot_S64x128_S128x16_S64x16_1_0_0_1_n_n.rhsIdx_val_of_single rfl i q
theorem rhsB_1 (i : S64x16.Idx) (q : dot_S64x128_S128x16_S64x16_1_0_0_1_n_n.contr.Idx) :
    (dot_S64x128_S128x16_S64x16_1_0_0_1_n_n.rhsIdx i q 1).val = (i 1).val := by
  unfold DotDims.rhsIdx
  rw [dif_neg (show ¬(1 : Fin S128x16.rank) ∈ dot_S64x128_S128x16_S64x16_1_0_0_1_n_n.rhsBatch by decide), dif_pos (show (1 : Fin S128x16.rank) ∈ dot_S64x128_S128x16_S64x16_1_0_0_1_n_n.rhsNonContracting by decide)]
  rfl

/-- On the extended reals the host's contraction is the plain sum over the 128 contracted features: entry (r, q) reads
    row r of the table and column q of the weight. -/
theorem dotB_eq (X : FVec Ideal S64x128 .f32) (W : FVec Ideal S128x16 .f32) :
    Host.dotGeneral (F := Ideal) dot_S64x128_S128x16_S64x16_1_0_0_1_n_n none X W = rowsTimes (n := 64) (p := 16) X W := by
  funext i
  simp only [Host.dotGeneral]
  rw [Ideal.dotGeneral_apply, ← Equiv.sum_comp (ValueIdx.contrEquiv1 dot_S64x128_S128x16_S64x16_1_0_0_1_n_n 128 rfl rfl).symm]
  unfold rowsTimes
  refine Finset.sum_congr rfl fun k _ => ?_
  have hk := ValueIdx.contrEquiv1_symm_val dot_S64x128_S128x16_S64x16_1_0_0_1_n_n 128 rfl rfl k
  have el : dot_S64x128_S128x16_S64x16_1_0_0_1_n_n.lhsIdx i ((ValueIdx.contrEquiv1 dot_S64x128_S128x16_S64x16_1_0_0_1_n_n 128 rfl rfl).symm k) = ix2 (n0 := 64) (n1 := 128) (i 0) k := funext fun a => Fin.ext (by
    match a with
    | ⟨0, _⟩ => exact lhsB_0 _ _
    | ⟨1, _⟩ => exact (lhsB_1 _ _).trans hk)
  have er : dot_S64x128_S128x16_S64x16_1_0_0_1_n_n.rhsIdx i ((ValueIdx.contrEquiv1 dot_S64x128_S128x16_S64x16_1_0_0_1_n_n 128 rfl rfl).symm k) = ix2 (n0 := 128) (n1 := 16) k (i 1) := funext fun a => Fin.ext (by
    match a with
    | ⟨0, _⟩ => exact (rhsB_0 _ _).trans hk
    | ⟨1, _⟩ => exact rhsB_1 _ _)
  rw [el, er]

/-! ### The bias laid out as a row, and the two bias steps -/

/-- A 128-entry vector laid out as one row reads, at column q of its row, the vector's entry q. -/
theorem row128_apply (b : FVec Ideal S128 .f32) (h : S128.ShapeCasts S1x128) (q : Fin 128) :
    shapeCast S1x128 b h (ix2 (n0 := 1) (n1 := 128) 0 q) = b (ix1 q) :=
  shapeCast_apply b h _ _ (by
    rw [Shape.rowMajor_val_one, Shape.rowMajor_val_two]
    show q.val = 0 * 128 + q.val
    omega)

/-- A 16-entry vector laid out as one row reads, at column q of its row, the vector's entry q. -/
theorem row16_apply (b : FVec Ideal S16 .f32) (h : S16.ShapeCasts S1x16) (q : Fin 16) :
    shapeCast S1x16 b h (ix2 (n0 := 1) (n1 := 16) 0 q) = b (ix1 q) :=
  shapeCast_apply b h _ _ (by
    rw [Shape.rowMajor_val_one, Shape.rowMajor_val_two]
    show q.val = 0 * 16 + q.val
    omega)

/-- The reference's bias-and-clamp step is `biasRelu` with the bias as a row: at entry (r, q) both are the maximum
    of A(r, q) + b(q) and zero. -/
theorem relu_eq (A : FVec Ideal S50000x128 .f32) (b : FVec Ideal S128 .f32)
    (h : S128.ShapeCasts S1x128) :
    maximumf (F := Ideal) (addf A (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = biasRelu (n := 50000) (p := 128) A (shapeCast S1x128 b h) := by
  funext j
  obtain ⟨r, q, rfl⟩ : ∃ (r : Fin 50000) (q : Fin 128), j = ix2 r q := ⟨j 0, j 1, eq_ix2 j⟩
  rw [biasRelu_apply, row128_apply, maximumf_apply, addf_apply]
  rw [broadcastInDim_apply _ bcast_S1x128_S50000x128_0_1 _ (ix2 r q) (ix2 (n0 := 1) (n1 := 128) 0 q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ bcast_S128_S1x128_1 b (ix2 (n0 := 1) (n1 := 128) 0 q) (ix1 q) (fun a => match a with
      | ⟨0, _⟩ => by show q.val = if (128 : Nat) = 1 then 0 else q.val; rw [if_neg (by decide)]),
    broadcastInDim_apply _ bcast_S_S50000x128 _ (ix2 r q) ix0 (fun a => a.elim0),
    constant_apply, Ideal.ofBits_zero_f32]

/-- The reference's last bias step is `addRow` with the bias as a row. -/
theorem addRow_eq (A : FVec Ideal S64x16 .f32) (b : FVec Ideal S16 .f32)
    (h : S16.ShapeCasts S1x16) :
    addf (F := Ideal) A (broadcastInDim S64x16 ![0, 1] bcast_S1x16_S64x16_0_1 (broadcastInDim S1x16 ![1] bcast_S16_S1x16_1 b))
      = addRow (n := 64) (p := 16) A (shapeCast S1x16 b h) := by
  funext j
  obtain ⟨r, q, rfl⟩ : ∃ (r : Fin 64) (q : Fin 16), j = ix2 r q := ⟨j 0, j 1, eq_ix2 j⟩
  rw [addRow_apply, row16_apply, addf_apply]
  rw [broadcastInDim_apply _ bcast_S1x16_S64x16_0_1 _ (ix2 r q) (ix2 (n0 := 1) (n1 := 16) 0 q) (fun a => match a with
      | ⟨0, _⟩ => by show 0 = if (1 : Nat) = 1 then 0 else r.val; rw [if_pos rfl]
      | ⟨1, _⟩ => by show q.val = if (16 : Nat) = 1 then 0 else q.val; rw [if_neg (by decide)]),
    broadcastInDim_apply _ bcast_S16_S1x16_1 b (ix2 (n0 := 1) (n1 := 16) 0 q) (ix1 q) (fun a => match a with
      | ⟨0, _⟩ => by show q.val = if (16 : Nat) = 1 then 0 else q.val; rw [if_neg (by decide)])]

/-! ### The reference's composition is the model -/

/-- Read with the three readings above, layer by layer from the inside out, the reference's composition of the
    arguments is the model at the biases laid out as rows: the sparse steps are the same terms on both sides. -/
theorem hostOut_eq_model (x : FVec Ideal S50000x128 .f32) (ei : IVec S2x800000 32) (bt : IVec S50000 32)
    (W1 : FVec Ideal S128x128 .f32) (b1 : FVec Ideal S128 .f32) (W2 : FVec Ideal S128x128 .f32) (b2 : FVec Ideal S128 .f32)
    (Wfc : FVec Ideal S128x16 .f32) (bfc : FVec Ideal S16 .f32) (h : S128.ShapeCasts S1x128) (h' : S16.ShapeCasts S1x16) :
    hostOut (F := Ideal) x ei bt W1 b1 W2 b2 Wfc bfc
      = model x ei bt W1 (shapeCast S1x128 b1 h) W2 (shapeCast S1x128 b2 h) Wfc (shapeCast S1x16 bfc h') := by
  unfold hostOut hostLayer model layer
  rw [dotA_eq, relu_eq _ _ h, dotA_eq, relu_eq _ _ h, dotB_eq, addRow_eq _ _ h']

end Cert.Gcn

end
-- ==== Proof.lean ====
/- A two-layer graph convolution with a mean pool and a final linear map, computed two ways, is one function of its
   arguments on the extended reals.
   The kernel's program computes the three dense products (node table × first weight; first layer × second weight;
   pooled table × last weight) and the two bias-and-clamp steps inside four tiled regions, row block by row block,
   and everything sparse — the edge endpoints with their self loops, the degree normalisation, the gather, scale and
   scatter-add of message passing, the per-graph mean — by host operations between the regions. The reference does
   all of it by host operations. The sparse steps are the same operations on both sides and are never opened. The
   dense steps agree entry by entry: a product's entry (r, q) is the sum over the 128 contracted features of left
   entry (r, k) times right entry (k, q), whichever unit forms the sum and in whatever order; a row block of a
   product is the product of the row block, and the row blocks tile the table; rounding the factors to a shorter
   format before the product is the identity on the extended reals; a bias broadcast to every row and a bias laid
   out as one row and added to every row are the same sum. No step needs an input to be finite: the two sides are
   the same sums and maxima of the same terms, so the precondition is never opened.
   The frames of the two kernel programs are the generated frame certificates; the reference's frame is its run
   with the result dropped. The claim's own statement of what the idealization must preserve is empty (its ledger
   records no rewritten operation: the roundings to the shorter format are still in the program's text and are read
   as the identity), so that conjunct holds trivially. -/
import proofs.«158317_j52415780880534_1_alg».proof.Defs
import proofs.«158317_j52415780880534_1_alg».proof.Proof.Gen.Kernel
import proofs.«158317_j52415780880534_1_alg».proof.Proof.Gen.Kernel.Skeleton
import proofs.«158317_j52415780880534_1_alg».proof.Proof.Gen.Kernel.Launch
import proofs.«158317_j52415780880534_1_alg».proof.Proof.Gen.Kernel.Points
import proofs.«158317_j52415780880534_1_alg».proof.Proof.Gen.Kernel.Frame
import proofs.«158317_j52415780880534_1_alg».proof.Proof.Gen.KernelIdeal
import proofs.«158317_j52415780880534_1_alg».proof.Proof.Gen.KernelIdeal.Skeleton
import proofs.«158317_j52415780880534_1_alg».proof.Proof.Gen.KernelIdeal.Launch
import proofs.«158317_j52415780880534_1_alg».proof.Proof.Gen.KernelIdeal.Points
import proofs.«158317_j52415780880534_1_alg».proof.Proof.Gen.KernelIdeal.Frame
import proofs.«158317_j52415780880534_1_alg».proof.Proof.Gen.ReferenceIdeal
import proofs.«158317_j52415780880534_1_alg».proof.Proof.Gen.Pre_finite_inputs
import proofs.«158317_j52415780880534_1_alg».proof.Proof.RefRun
import proofs.«158317_j52415780880534_1_alg».proof.Proof.KernelRun
import proofs.«158317_j52415780880534_1_alg».proof.Proof.KernelValue
import proofs.«158317_j52415780880534_1_alg».proof.Proof.RefBridge
import Idealize.ShloMosaic.Adequacy
import Idealize.ShloMosaic.Init

set_option maxRecDepth 16384

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- THE VALUES AGREE: from memories that agree on the nine arguments, the term the reference's run ends at is what
    the kernel's program leaves in its result buffer. Both are the model of the arguments, the biases as rows. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v96 (F := Ideal) m' c
      = Cert.KernelIdeal.Gen.W10 (F := Ideal) m ρ c (Proc.devRef .tc Cert.KernelIdeal.main_v74) := by
  obtain ⟨e0, e1, e2, e3, e4, e5, e6, e7, e8⟩ := hagree
  rw [Cert.Gcn.res_eq_hostOut, e0, e1, e2, e3, e4, e5, e6, e7, e8, Cert.Gcn.KernelValue.result m ρ c,
    Cert.Gcn.hostOut_eq_model _ _ _ _ _ _ _ _ _ Cert.KernelIdeal.Gen.shapeCasts_S128_S1x128 Cert.KernelIdeal.Gen.shapeCasts_S16_S1x16]

/-- Both programs run to the end from memories that agree on the arguments, with equal results and unchanged
    arguments: the kernel's run with its result buffer read, the reference's run, and the value equation. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v74),
    Cert.KernelIdeal.Gen.run_result (F := Ideal) m ρ, ?_⟩
  exact (θ_run Cert.ReferenceIdeal.defs _ _).mono
    (fun _ h c => ⟨(h c).1.trans (value_eq m ρ m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
